-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x16 : Shape := ⟨2, ![1000000, 16]⟩
abbrev S1000000x8 : Shape := ⟨2, ![1000000, 8]⟩
abbrev S_ : Shape := ⟨0, ![]⟩

class Facts : Prop where
  bcast_S_S1000000x16 : S_.BroadcastsInDim S1000000x16 (![] : Fin 0 → Fin S1000000x16.rank)
  reducesTo_S1000000x16_S_d0_1 : S1000000x16.ReducesTo [0, 1] S_
  h_S_ : 0 < S_.numel
  bcast_S_S1000000x8 : S_.BroadcastsInDim S1000000x8 (![] : Fin 0 → Fin S1000000x8.rank)
  reducesTo_S1000000x8_S_d0_1 : S1000000x8.ReducesTo [0, 1] S_

variable [Facts]

def fn {F : FTy → Type} [FloatOps F] (main_arg0 : FVec F S1000000x16 .f32) (main_arg1 : FVec F S1000000x16 .f32) (main_arg2 : FVec F S1000000x8 .f32) : IVec S_ 1 :=
  let main_v0 : FVec F S1000000x16 .f32 := Host.absf main_arg0
  let main_cst : FVec F S_ .f32 := constant S_ .f32 0x7F800000#32
  let main_v1 : FVec F S1000000x16 .f32 := broadcastInDim S1000000x16 ![] bcast_S_S1000000x16 main_cst
  let main_v2 : IVec S1000000x16 1 := cmpf .olt main_v0 main_v1
  let main_c : IVec S_ 1 := constantI S_ 1 1#1
  let main_v3 : IVec S_ 1 := (fun x v => Host.reduce IntOp.andi x v reducesTo_S1000000x16_S_d0_1 h_S_) main_v2 main_c
  let main_v4 : FVec F S1000000x16 .f32 := Host.absf main_arg1
  let main_cst_0 : FVec F S_ .f32 := constant S_ .f32 0x7F800000#32
  let main_v5 : FVec F S1000000x16 .f32 := broadcastInDim S1000000x16 ![] bcast_S_S1000000x16 main_cst_0
  let main_v6 : IVec S1000000x16 1 := cmpf .olt main_v4 main_v5
  let main_c_1 : IVec S_ 1 := constantI S_ 1 1#1
  let main_v7 : IVec S_ 1 := (fun x v => Host.reduce IntOp.andi x v reducesTo_S1000000x16_S_d0_1 h_S_) main_v6 main_c_1
  let main_v8 : IVec S_ 1 := andi main_v3 main_v7
  let main_v9 : FVec F S1000000x8 .f32 := Host.absf main_arg2
  let main_cst_2 : FVec F S_ .f32 := constant S_ .f32 0x7F800000#32
  let main_v10 : FVec F S1000000x8 .f32 := broadcastInDim S1000000x8 ![] bcast_S_S1000000x8 main_cst_2
  let main_v11 : IVec S1000000x8 1 := cmpf .olt main_v9 main_v10
  let main_c_3 : IVec S_ 1 := constantI S_ 1 1#1
  let main_v12 : IVec S_ 1 := (fun x v => Host.reduce IntOp.andi x v reducesTo_S1000000x8_S_d0_1 h_S_) main_v11 main_c_3
  let main_v13 : IVec S_ 1 := andi main_v8 main_v12
  main_v13
-- ==== Kernel.lean ====
abbrev S1000000x16 : Shape := ⟨2, ![1000000, 16]⟩
abbrev S1000000x8 : Shape := ⟨2, ![1000000, 8]⟩
abbrev S1x1 : Shape := ⟨2, ![1, 1]⟩
abbrev S8000x16 : Shape := ⟨2, ![8000, 16]⟩
abbrev S8000x8 : Shape := ⟨2, ![8000, 8]⟩
abbrev S8000 : Shape := ⟨1, ![8000]⟩
abbrev S8000x1 : Shape := ⟨2, ![8000, 1]⟩
abbrev S1 : Shape := ⟨1, ![1]⟩
abbrev S_ : Shape := ⟨0, ![]⟩

abbrev nBuf : Space → Nat
  | .hbm => 5
  | .vmem => 7
  | .smem => 0
  | _ => 0

abbrev bufTy : (tb : Table) → Fin (tcTables nBuf tb) → BufTy
  | .hbm, ⟨0, _⟩ => ⟨S1000000x16, .f32⟩
  | .hbm, ⟨1, _⟩ => ⟨S1000000x16, .f32⟩
  | .hbm, ⟨2, _⟩ => ⟨S1000000x8, .f32⟩
  | .hbm, ⟨3, _⟩ => ⟨S1x1, .f32⟩
  | .hbm, ⟨4, _⟩ => ⟨S_, .f32⟩
  | .local _ .vmem, ⟨0, _⟩ => ⟨S8000x16, .f32⟩
  | .local _ .vmem, ⟨1, _⟩ => ⟨S8000x16, .f32⟩
  | .local _ .vmem, ⟨2, _⟩ => ⟨S8000x16, .f32⟩
  | .local _ .vmem, ⟨3, _⟩ => ⟨S8000x16, .f32⟩
  | .local _ .vmem, ⟨4, _⟩ => ⟨S8000x8, .f32⟩
  | .local _ .vmem, ⟨5, _⟩ => ⟨S8000x8, .f32⟩
  | .local _ .vmem, ⟨6, _⟩ => ⟨S1x1, .f32⟩
  | _, _ => ⟨S1000000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S8000x16_S8000x16_0_0 : ∀ a, (![0, 0] : Fin 2 → Nat) a + S8000x16.size a ≤ S8000x16.size a
  h_S8000x16 : 0 < S8000x16.numel
  reduces_S8000x16_S8000 : S8000x16.Reduces [1] S8000
  shapeCasts_S8000_S8000x1 : S8000.ShapeCasts S8000x1
  inb_S8000x8_S8000x1_0_3 : ∀ a, (![0, 3] : Fin 2 → Nat) a + S8000x1.size a ≤ S8000x8.size a
  h_S8000x1 : 0 < S8000x1.numel
  reduces_S8000x1_S1 : S8000x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x16.size a ≤ S1000000x16.size a
  hwx0_0 : ∀ i : grid0.Coords, EltTy.bits .f32 = 32 ∨ (Rect.block (s := S1000000x16) S8000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x16.size a ≤ S1000000x16.size a
  hwx0_1 : ∀ i : grid0.Coords, EltTy.bits .f32 = 32 ∨ (Rect.block (s := S1000000x16) S8000x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x8.size a ≤ S1000000x8.size a
  hwx0_2 : ∀ i : grid0.Coords, EltTy.bits .f32 = 32 ∨ (Rect.block (s := S1000000x8) S8000x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_arg0) S8000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8000x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1000000x16 : Shape := ⟨2, ![1000000, 16]⟩
abbrev S1000000x8 : Shape := ⟨2, ![1000000, 8]⟩
abbrev S_ : Shape := ⟨0, ![]⟩
abbrev S1000000 : Shape := ⟨1, ![1000000]⟩
abbrev S1000000x1 : Shape := ⟨2, ![1000000, 1]⟩

abbrev nBuf : Space → Nat
  | .hbm => 23
  | .vmem => 0
  | .smem => 0
  | _ => 0

abbrev bufTy : (tb : Table) → Fin (tcTables nBuf tb) → BufTy
  | .hbm, ⟨0, _⟩ => ⟨S1000000x16, .f32⟩
  | .hbm, ⟨1, _⟩ => ⟨S1000000x16, .f32⟩
  | .hbm, ⟨2, _⟩ => ⟨S1000000x8, .f32⟩
  | .hbm, ⟨3, _⟩ => ⟨S1000000x16, .f32⟩
  | .hbm, ⟨4, _⟩ => ⟨S1000000x16, .f32⟩
  | .hbm, ⟨5, _⟩ => ⟨S_, .f32⟩
  | .hbm, ⟨6, _⟩ => ⟨S1000000, .f32⟩
  | .hbm, ⟨7, _⟩ => ⟨S_, .f32⟩
  | .hbm, ⟨8, _⟩ => ⟨S1000000, .f32⟩
  | .hbm, ⟨9, _⟩ => ⟨S1000000, .f32⟩
  | .hbm, ⟨10, _⟩ => ⟨S1000000x1, .f32⟩
  | .hbm, ⟨11, _⟩ => ⟨S1000000, .f32⟩
  | .hbm, ⟨12, _⟩ => ⟨S_, .f32⟩
  | .hbm, ⟨13, _⟩ => ⟨S1000000, .f32⟩
  | .hbm, ⟨14, _⟩ => ⟨S1000000, .f32⟩
  | .hbm, ⟨15, _⟩ => ⟨S_, .f32⟩
  | .hbm, ⟨16, _⟩ => ⟨S1000000, .f32⟩
  | .hbm, ⟨17, _⟩ => ⟨S1000000, .f32⟩
  | .hbm, ⟨18, _⟩ => ⟨S1000000, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | _, _ => ⟨S1000000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩

abbrev nD : Nat := 1
abbrev τ : Topo := Topo.v7x

variable {F : FTy → Type} [FloatOps F]

class Facts₀ : Prop where
  reducesTo_S1000000x16_S1000000_d1 : S1000000x16.ReducesTo [1] S1000000
  h_S_ : 0 < S_.numel
  bcast_S_S1000000 : S_.BroadcastsInDim S1000000 (![] : Fin 0 → Fin S1000000.rank)
  slices_S1000000x8_S1000000x1_0_3 : S1000000x8.Slices ![0, 3] S1000000x1
  shapeCasts_S1000000x1_S1000000 : S1000000x1.ShapeCasts S1000000
  reducesTo_S1000000_S_d0 : S1000000.ReducesTo [0] S_

variable [Facts₀]

class Facts : Prop extends Facts₀ where

variable [Facts]
-- ==== Proof.LibBlockSum.lean ====
/-
  Three general facts: a sum over B·R indices taken block by block, a 32-bit word read as a small natural number, and an
  indicator times an extended real.
-/
import Mathlib.Logic.Equiv.Fin.Basic
import Mathlib.Data.Fintype.BigOperators
import Mathlib.Algebra.BigOperators.Group.Finset.Defs
import Mathlib.Data.EReal.Operations

noncomputable section

open scoped BigOperators

namespace Cert.LibBlockSum

/-! ## A sum over B·R indices, block by block -/

/-- Entry `r` of block `t`, among `N = B * R` indices cut into `B` consecutive blocks of `R`: the index `R * t + r`. -/
def blockIdx {B R N : Nat} (h : B * R = N) (t : Fin B) (r : Fin R) : Fin N :=
  ⟨R * t.val + r.val, by
    have ht := t.isLt
    have hr := r.isLt
    calc R * t.val + r.val < R * t.val + R := by omega
      _ = R * (t.val + 1) := by rw [Nat.mul_succ]
      _ ≤ R * B := Nat.mul_le_mul_left _ ht
      _ = N := by rw [Nat.mul_comm]; exact h⟩

/-- Its value is `R * t + r`. -/
theorem blockIdx_val {B R N : Nat} (h : B * R = N) (t : Fin B) (r : Fin R) :
    (blockIdx h t r).val = R * t.val + r.val := rfl

/-- A sum over `N = B * R` indices is the sum over the `B` blocks of the sum over each block's `R` entries. -/
theorem sum_blocks {M : Type*} [AddCommMonoid M] {B R N : Nat} (h : B * R = N) (f : Fin N → M) :
    ∑ n : Fin N, f n = ∑ t : Fin B, ∑ r : Fin R, f (blockIdx h t r) := by
  subst h
  rw [← Equiv.sum_comp (finProdFinEquiv (m := B) (n := R)) f, Fintype.sum_prod_type]
  refine Finset.sum_congr rfl fun t _ => Finset.sum_congr rfl fun r _ => congrArg f (Fin.ext ?_)
  show r.val + R * t.val = R * t.val + r.val
  exact Nat.add_comm _ _

/-! ## A 32-bit word that is a small natural number -/

/-- A 32-bit word is the word of a natural number `g` below `2 ^ 31` exactly when, read as a signed integer, it is `g`. -/
theorem eq_ofNat_iff_toInt_eq (b : BitVec 32) (g : Nat) (hg : g < 2 ^ 31) :
    b = BitVec.ofNat 32 g ↔ b.toInt = (g : Int) := by
  have e : (BitVec.ofNat 32 g).toInt = (g : Int) := by
    rw [BitVec.toInt_eq_toNat_of_lt (by rw [BitVec.toNat_ofNat]; omega), BitVec.toNat_ofNat]
    omega
  rw [← e]
  exact BitVec.toInt_inj.symm

/-! ## An indicator times an extended real -/

/-- One or zero, by a condition, times an extended real is the real or zero, by the condition. -/
theorem ite_one_zero_mul (p : Prop) [Decidable p] (x : EReal) :
    (if p then (1 : EReal) else 0) * x = if p then x else 0 := by
  split
  · exact one_mul x
  · exact zero_mul x

/-- The example: 100000 indices as 20 blocks of 5000 (name the two factors: the product alone does not determine them). -/
example {M : Type*} [AddCommMonoid M] (f : Fin 100000 → M) :
    ∑ n : Fin 100000, f n = ∑ t : Fin 20, ∑ r : Fin 5000, f (blockIdx (B := 20) (R := 5000) (N := 100000) (by norm_num) t r) :=
  sum_blocks (B := 20) (R := 5000) (by norm_num) f

end Cert.LibBlockSum

end
-- ==== Proof.WeightedL1.lean ====
/-
  The weighted mean absolute error, as a function of the rows.

  Every sample (row) contributes the mean of its sixteen absolute differences, weighted by one plus a tenth of the
  sample's speed (column 3 of the feature matrix); the result is the sum of the contributions divided by the number of
  samples. The sum over the million samples may be taken in 125 consecutive blocks of 8000: addition of extended reals is
  commutative and associative, so no finiteness is needed for that.
-/
import Idealize.ShloMosaic.PureOps.Ideal
import Idealize.ShloMosaic.PureOps.Ideal.Laws
import Idealize.ShloMosaic.Lib.ValueIdx
import proofs.«166217_j42545946034230_1_alg».proof.Proof.LibBlockSum

noncomputable section

open scoped BigOperators

namespace Cert.WeightedL1

open Idealize.ShloMosaic Idealize.ShloMosaic.ValueIdx

/-- One sample's contribution: the sum of its sixteen absolute differences divided by sixteen, times one plus the speed
    times the single-precision literal nearest a tenth. The literals stay words: both programs spell the same ones. -/
def sampleTerm (a b : Fin 16 → EReal) (s : EReal) : EReal :=
  Ideal.div (∑ j : Fin 16, FloatOps.absf (F := Ideal) (φ := .f32) (a j - b j)) (Ideal.ofBits .f32 0x41800000#32)
    * (Ideal.ofBits .f32 0x3F800000#32 + s * Ideal.ofBits .f32 0x3DCCCCCD#32)

/-- Sample `r`'s contribution, from the two 1000000×16 arrays and the 1000000×8 feature array (its speed is column 3). -/
def sampleOf (a b : (⟨2, ![1000000, 16]⟩ : Shape).Idx → EReal) (x : (⟨2, ![1000000, 8]⟩ : Shape).Idx → EReal) (r : Fin 1000000) : EReal :=
  sampleTerm (fun j => a (ix2 r j)) (fun j => b (ix2 r j)) (x (ix2 r (3 : Fin 8)))

/-- The sum of a family of contributions over the million samples, divided by a million. -/
def meanOf (w : Fin 1000000 → EReal) : EReal :=
  Ideal.div (∑ r : Fin 1000000, w r) (Ideal.ofBits .f32 0x49742400#32)

/-- Sample `p` of block `t` (125 blocks of 8000 samples). -/
abbrev sampleIdx (t : Fin 125) (p : Fin 8000) : Fin 1000000 :=
  Cert.LibBlockSum.blockIdx (B := 125) (R := 8000) (N := 1000000) (by norm_num) t p

/-- The sum over all samples is the sum over the blocks of each block's sum. -/
theorem sum_samples (w : Fin 1000000 → EReal) :
    ∑ r : Fin 1000000, w r = ∑ t : Fin 125, ∑ p : Fin 8000, w (sampleIdx t p) :=
  Cert.LibBlockSum.sum_blocks (B := 125) (R := 8000) (by norm_num) w

/-- The running total after the blocks `0, …, n`, taken in order from zero. -/
def runningTotal (S : ℕ → EReal) : ℕ → EReal
  | 0 => 0 + S 0
  | n + 1 => runningTotal S n + S (n + 1)

/-- The ordered running total is the sum of the first `n + 1` block sums. -/
theorem runningTotal_eq (S : ℕ → EReal) (n : ℕ) : runningTotal S n = ∑ k ∈ Finset.range (n + 1), S k := by
  induction n with
  | zero => simp [runningTotal]
  | succ n ih => rw [runningTotal, ih, Finset.sum_range_succ (fun k => S k) (n + 1)]

/-- Over 125 blocks: the running total after the last block is the sum over the blocks as `Fin 125`. -/
theorem runningTotal_last (S : Fin 125 → EReal) :
    runningTotal (fun k => if h : k < 125 then S ⟨k, h⟩ else 0) 124 = ∑ t : Fin 125, S t := by
  rw [runningTotal_eq, Finset.sum_range (fun k => if h : k < 125 then S ⟨k, h⟩ else 0)]
  exact Finset.sum_congr rfl fun t _ => dif_pos t.isLt

end Cert.WeightedL1

end
-- ==== Proof.LibKeepdims.lean ====
/-
  Reductions that keep their axis, read at an index given by coordinates.

  A sum over one axis of a matrix that keeps the axis (`jnp.sum(…, keepdims=True)`) is a lane sum to a vector, a shape
  cast of the vector to a column `[a] → [a, 1]` or to a row `[a] → [1, a]`, and a broadcast of the column
  `[a, 1] → [a, b]` or of the row back over the matrix. Here: the column cast and the column broadcast at `(i, j)`, and
  an f32 lane sum over the columns (axis 1) or over the rows (axis 0) of a matrix at the extended reals as a
  `Fin`-indexed sum of the matrix entries.
-/
import Idealize.ShloMosaic.Lib.ValueLayout
import Idealize.ShloMosaic.PureOps.Ideal.Laws

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An f32 lane sum over the COLUMNS of an `[a, b]` matrix of extended reals is, in row `r`, the sum of that row. -/
theorem multiReduction_add_cols_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ c : Fin b, src (ix2 r c) :=
  (Ideal.multiReduction_add_single src 0x00000000#32 h hφ hacc (ix1 r)).trans
    (Finset.sum_congr rfl fun c _ => congrArg src (funext fun ax => Fin.ext (by
      match ax with
      | ⟨0, _⟩ => rfl
      | ⟨1, _⟩ => rfl)))

/-- An f32 lane sum over the ROWS of an `[a, b]` matrix of extended reals is, in column `j`, the sum of that column. -/
theorem multiReduction_add_rows_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ src 0x00000000#32 h hφ hacc (ix1 j) = ∑ c : Fin a, src (ix2 c j) :=
  (Ideal.multiReduction_add_single src 0x00000000#32 h hφ hacc (ix1 j)).trans
    (Finset.sum_congr rfl fun c _ => congrArg src (funext fun ax => Fin.ext (by
      match ax with
      | ⟨0, _⟩ => rfl
      | ⟨1, _⟩ => rfl)))

end Idealize.ShloMosaic.ValueIdx
-- ==== Proof.BlockTotal.lean ====
/-
  The kernel body's arithmetic over the extended reals, read at an entry.

  The body's accumulating store writes, into the one-entry output block, the previous entry plus the total over the
  block's 8000 samples of each sample's contribution: the row sum of the absolute differences (a lane sum over the
  sixteen columns, laid as a column), divided by sixteen, times one plus a tenth of the speed column, summed down the rows
  (a lane sum over the 8000 rows, laid as a one-entry block). The last point's store divides the entry by a million, and
  the first point's store writes zero.
-/
import proofs.«166217_j42545946034230_1_alg».proof.Proof.Gen.KernelIdeal.Skeleton
import proofs.«166217_j42545946034230_1_alg».proof.Proof.WeightedL1
import proofs.«166217_j42545946034230_1_alg».proof.Proof.LibKeepdims
import Idealize.ShloMosaic.Lib.ValueIdx
import Idealize.ShloMosaic.Lib.Pipeline.Value

noncomputable section

open scoped BigOperators

namespace Cert.KernelIdeal.BlockTotal

open Idealize.ShloMosaic Idealize.ShloMosaic.ValueIdx Cert.KernelIdeal Cert.KernelIdeal.Gen Cert.WeightedL1

/-- The one index of a one-entry block. -/
theorem idx_eq (y : S1x1.Idx) : y = ix2 (0 : Fin 1) (0 : Fin 1) := by
  funext a
  match a with
  | ⟨0, _⟩ => exact Fin.ext (by have h : (y 0).val < 1 := (y 0).isLt; show (y 0).val = 0; omega)
  | ⟨1, _⟩ => exact Fin.ext (by have h : (y 1).val < 1 := (y 1).isLt; show (y 1).val = 0; omega)

/-- The lane sum over the sixteen columns of a block, in row `p`: the sum of that row. (The accumulator's side
    condition is spelt as the body spells it, an equation between the zero word and itself.) -/
theorem rowSum_apply (v : FVec Ideal S8000x16 .f32) (h : S8000x16.Reduces [1] S8000) (hφ : FKind.Formats .f32)
    (hacc : (0x00000000#32 : BitVec 32) = 0x00000000#32) (p : Fin 8000) :
    multiReduction .add [1] S8000 v 0x00000000#32 h hφ hacc (ix1 p) = ∑ j : Fin 16, v (ix2 p j) :=
  multiReduction_add_cols_apply v h hφ hacc p

/-- The lane sum down the 8000 rows of a one-column block: the sum of the column. -/
theorem colTotal_apply (v : FVec Ideal S8000x1 .f32) (h : S8000x1.Reduces [0] S1) (hφ : FKind.Formats .f32)
    (hacc : (0x00000000#32 : BitVec 32) = 0x00000000#32) (u : Fin 1) :
    multiReduction .add [0] S1 v 0x00000000#32 h hφ hacc (ix1 u) = ∑ p : Fin 8000, v (ix2 p u) :=
  multiReduction_add_rows_apply v h hφ hacc u

/-- The total of a block's contributions: `d` and `e` the two 8000×16 blocks, `s` the speed column. -/
def blockTotal (d e : S8000x16.Idx → EReal) (s : S8000x1.Idx → EReal) : EReal :=
  ∑ p : Fin 8000, sampleTerm (fun j => d (ix2 p j)) (fun j => e (ix2 p j)) (s (ix2 p (0 : Fin 1)))

/-- The accumulating store's value: the previous entry plus the block's total. -/
theorem accumulate_apply (d e : Vec Ideal S8000x16 .f32) (s : Vec Ideal S8000x1 .f32) (prev : Vec Ideal S1x1 .f32) (y : S1x1.Idx) :
    k0_pay2 (F := Ideal) d e s prev y = prev (ix2 (0 : Fin 1) (0 : Fin 1)) + blockTotal d e s := by
  rw [idx_eq y]
  unfold k0_pay2
  rw [addf_apply, shapeCast_self, shapeCast_a_a1_apply, colTotal_apply]
  refine congrArg (_ + ·) (Finset.sum_congr rfl fun p _ => ?_)
  rw [mulf_apply, divf_apply, shapeCast_a_a1_apply, rowSum_apply, addf_apply, mulf_apply]
  rfl

/-- The first point's reset writes zero. -/
theorem reset_apply (y : S1x1.Idx) : k0_pay1 (F := Ideal) y = 0 := by
  unfold k0_pay1
  show Ideal.ofBits .f32 0x00000000#32 = 0
  exact Ideal.ofBits_zero_f32

/-- The last point's store divides the entry by a million. -/
theorem finish_apply (acc : Vec Ideal S1x1 .f32) (y : S1x1.Idx) :
    k0_pay3 (F := Ideal) acc y = Ideal.div (acc (ix2 (0 : Fin 1) (0 : Fin 1))) (Ideal.ofBits .f32 0x49742400#32) := by
  rw [idx_eq y]
  unfold k0_pay3
  rw [divf_apply, shapeCast_self]
  rfl

end Cert.KernelIdeal.BlockTotal

end
-- ==== Proof.Accumulate.lean ====
/-
  The idealized kernel's result: the running total over the 125 grid points, divided by a million.

  The output block has one entry and never moves; it is written back after the last point only. Point 0 stores zero and
  then adds its block's total; every later point adds its block's total to what the point before left; the last point,
  after adding, divides by a million. So after point `n < 124` the entry is the ordered running total of the block
  totals `0, …, n`, and after point 124 it is the whole running total divided by a million. Block `t` of each input is
  rows `8000 t, …, 8000 t + 7999` of its array, so a block's total is the sum of those samples' contributions, and the
  running total over all blocks is the sum over all samples. The host line after the kernel only reshapes the one-entry
  array to a scalar.
-/
import proofs.«166217_j42545946034230_1_alg».proof.Proof.Gen.KernelIdeal.Frame
import proofs.«166217_j42545946034230_1_alg».proof.Proof.BlockTotal
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem
open Idealize.ShloMosaic.Pipeline (Dat)

namespace Cert.KernelIdeal.Accumulate

open Cert.KernelIdeal Cert.KernelIdeal.Gen Cert.KernelIdeal.BlockTotal Cert.WeightedL1 Idealize.ShloMosaic.ValueIdx

/-! ## What each case of the body leaves in the output block -/

section Pieces

variable {F : FTy → Type} [FloatOps F]

theorem zero_off : (![0, 0] : Fin 2 → Nat) = fun _ => 0 := funext fun a => by fin_cases a <;> rfl

/-- The speed column of a feature block: what the body's load at column 3 reads of it. -/
abbrev speedCol (x2 : Vec F S8000x8 .f32) : Vec F S8000x1 .f32 :=
  View.ld x2 (Rect.unit (s := S8000x8) ![0, 3] S8000x1.size inb_S8000x8_S8000x1_0_3)

/-- Row `p` of the speed column is column 3 of row `p` of the block. -/
theorem speedCol_apply (x2 : Vec F S8000x8 .f32) (p : Fin 8000) (u : Fin 1) :
    speedCol x2 (ix2 p u) = x2 (ix2 p (3 : Fin 8)) := by
  show x2 _ = x2 _
  congr 1
  funext a
  apply Fin.ext
  match a with
  | ⟨0, _⟩ => show 0 + 1 * p.val = p.val; omega
  | ⟨1, _⟩ => show 3 + 1 * u.val = 3; omega

/-- A middle point: the block's previous contents plus the block's total (one covering store). -/
theorem out_mid (c : Dev nD) (i : grid0.Coords) (a1 : Memref sig .tc .vmem S8000x16 .f32) (h1 : a1.IsWhole)
    (a2 : Memref sig .tc .vmem S8000x16 .f32) (h2 : a2.IsWhole) (a3 : Memref sig .tc .vmem S8000x8 .f32) (h3 : a3.IsWhole)
    (a4 : Memref sig .tc .vmem S1x1 .f32) (h4 : a4.IsWhole) (hc0 : ¬cond0_0 i) (hc1 : ¬cond0_1 i)
    (x0 x1 : Vec F S8000x16 .f32) (x2 : Vec F S8000x8 .f32) (xo : Vec F S1x1 .f32) :
    out0_B_3 c i a1 h1 a2 h2 a3 h3 a4 h4 hc0 hc1 x0 x1 x2 xo = k0_pay2 x0 x1 (speedCol x2) xo := by
  unfold out0_B_3
  rw [View.read_writes_eq_canon _ _ _ (cover0_B_3 c i a1 h1 a2 h2 a3 h3 a4 h4 hc0 hc1 x0 x1 x2 xo)]
  unfold kernelRun0_B
  dsimp only
  sl_unfold_words
  rw [View.canon_unit_zero zero_off]
  simp only [View.readAt_eq_ld, h1.read_unread, h2.read_unread, h3.read_unread, h4.read_unread,
    View.ld_unit_zero (S := S8000x16) zero_off, View.ld_unit_zero (S := S1x1) zero_off]

/-- The first point: zero is stored, read back, and the block's total added to it. -/
theorem out_first (c : Dev nD) (i : grid0.Coords) (a1 : Memref sig .tc .vmem S8000x16 .f32) (h1 : a1.IsWhole)
    (a2 : Memref sig .tc .vmem S8000x16 .f32) (h2 : a2.IsWhole) (a3 : Memref sig .tc .vmem S8000x8 .f32) (h3 : a3.IsWhole)
    (a4 : Memref sig .tc .vmem S1x1 .f32) (h4 : a4.IsWhole) (hc0 : cond0_0 i) (hc1 : ¬cond0_1 i)
    (x0 x1 : Vec F S8000x16 .f32) (x2 : Vec F S8000x8 .f32) :
    out0_A_3 c i a1 h1 a2 h2 a3 h3 a4 h4 hc0 hc1 x0 x1 x2 = k0_pay2 x0 x1 (speedCol x2) k0_pay1 := by
  unfold out0_A_3
  rw [View.read_writes_eq_canon _ _ _ (cover0_A_3 c i a1 h1 a2 h2 a3 h3 a4 h4 hc0 hc1 x0 x1 x2)]
  unfold kernelRun0_A
  dsimp only
  sl_unfold_words
  rw [View.canon_cons_unit_zero (S := S1x1) zero_off]
  simp only [View.readAt_eq_ld, h1.read_unread, h2.read_unread, h3.read_unread, View.readCov_unit_zero (S := S1x1) _ zero_off,
    View.ld_unit_zero (S := S8000x16) zero_off, View.ld_unit_zero (S := S1x1) zero_off]

/-- The last point: the block's total is added to the previous contents, the sum read back and divided by a million. -/
theorem out_last (c : Dev nD) (i : grid0.Coords) (a1 : Memref sig .tc .vmem S8000x16 .f32) (h1 : a1.IsWhole)
    (a2 : Memref sig .tc .vmem S8000x16 .f32) (h2 : a2.IsWhole) (a3 : Memref sig .tc .vmem S8000x8 .f32) (h3 : a3.IsWhole)
    (a4 : Memref sig .tc .vmem S1x1 .f32) (h4 : a4.IsWhole) (hc0 : ¬cond0_0 i) (hc1 : cond0_1 i)
    (x0 x1 : Vec F S8000x16 .f32) (x2 : Vec F S8000x8 .f32) (xo : Vec F S1x1 .f32) :
    out0_C_3 c i a1 h1 a2 h2 a3 h3 a4 h4 hc0 hc1 x0 x1 x2 xo = k0_pay3 (k0_pay2 x0 x1 (speedCol x2) xo) := by
  unfold out0_C_3
  rw [View.read_writes_eq_canon _ _ _ (cover0_C_3 c i a1 h1 a2 h2 a3 h3 a4 h4 hc0 hc1 x0 x1 x2 xo)]
  unfold kernelRun0_C
  dsimp only
  sl_unfold_words
  rw [View.canon_cons_unit_zero (S := S1x1) zero_off]
  simp only [View.readAt_eq_ld, h1.read_unread, h2.read_unread, h3.read_unread, h4.read_unread,
    View.readCov_unit_zero (S := S1x1) _ zero_off, View.ld_unit_zero (S := S8000x16) zero_off, View.ld_unit_zero (S := S1x1) zero_off]

end Pieces

/-! ## The blocks are rows of the arrays -/

section Value

variable (m : (ℓ : Loc nD τ sig) → Buf (Elt Ideal) ℓ) (ρ : Dev nD → PrngReg)

/-- The three input blocks at a point, at their literal types. -/
abbrev outBlk (c : Dev nD) (t : Fin cfg0.N) : Vec Ideal S8000x16 .f32 := iblk m c 0 t
abbrev tgtBlk (c : Dev nD) (t : Fin cfg0.N) : Vec Ideal S8000x16 .f32 := iblk m c 1 t
abbrev featBlk (c : Dev nD) (t : Fin cfg0.N) : Vec Ideal S8000x8 .f32 := iblk m c 2 t

/-- The three argument arrays. -/
abbrev outArr (c : Dev nD) : (⟨2, ![1000000, 16]⟩ : Shape).Idx → EReal := m ((c : Thread nD τ).loc main_arg0)
abbrev tgtArr (c : Dev nD) : (⟨2, ![1000000, 16]⟩ : Shape).Idx → EReal := m ((c : Thread nD τ).loc main_arg1)
abbrev featArr (c : Dev nD) : (⟨2, ![1000000, 8]⟩ : Shape).Idx → EReal := m ((c : Thread nD τ).loc main_arg2)

/-- Grid point `k`. -/
abbrev pt (k : Fin 125) : Fin cfg0.N := ⟨k.val, lt_of_lt_of_eq k.isLt (show cfg0.N = 125 from N_0).symm⟩

/-- Every input window's block index at a point is (the point, 0). -/
theorem block_index : ∀ t : Fin cfg0.N, (win0_0.index t 0 = t.val ∧ win0_0.index t 1 = 0)
    ∧ (win0_1.index t 0 = t.val ∧ win0_1.index t 1 = 0) ∧ (win0_2.index t 0 = t.val ∧ win0_2.index t 1 = 0) :=
  (by decide +kernel : ∀ t : Fin grid0.N, (win0_0.index t 0 = t.val ∧ win0_0.index t 1 = 0)
    ∧ (win0_1.index t 0 = t.val ∧ win0_1.index t 1 = 0) ∧ (win0_2.index t 0 = t.val ∧ win0_2.index t 1 = 0))

/-- Entry `(p, j)` of block `k` of the first array is its entry in row `8000 k + p`. -/
theorem outBlk_apply (c : Dev nD) (k : Fin 125) (p : Fin 8000) (j : Fin 16) :
    outBlk m c (pt k) (ix2 p j) = outArr m c (ix2 (sampleIdx k p) j) := by
  have hi := (block_index (pt k)).1
  unfold outBlk iblk
  rw [View.read_apply]
  show V m c main_arg0 _ = m ((c : Thread nD τ).loc main_arg0) _
  rw [V_main_arg0]
  congr 1
  funext a
  apply Fin.ext
  match a with
  | ⟨0, _⟩ => show win0_0.index (pt k) 0 * 8000 + 1 * p.val = 8000 * k.val + p.val; rw [hi.1]; show k.val * 8000 + 1 * p.val = _; omega
  | ⟨1, _⟩ => show win0_0.index (pt k) 1 * 16 + 1 * j.val = j.val; rw [hi.2]; omega

/-- The same for the second array. -/
theorem tgtBlk_apply (c : Dev nD) (k : Fin 125) (p : Fin 8000) (j : Fin 16) :
    tgtBlk m c (pt k) (ix2 p j) = tgtArr m c (ix2 (sampleIdx k p) j) := by
  have hi := (block_index (pt k)).2.1
  unfold tgtBlk iblk
  rw [View.read_apply]
  show V m c main_arg1 _ = m ((c : Thread nD τ).loc main_arg1) _
  rw [V_main_arg1]
  congr 1
  funext a
  apply Fin.ext
  match a with
  | ⟨0, _⟩ => show win0_1.index (pt k) 0 * 8000 + 1 * p.val = 8000 * k.val + p.val; rw [hi.1]; show k.val * 8000 + 1 * p.val = _; omega
  | ⟨1, _⟩ => show win0_1.index (pt k) 1 * 16 + 1 * j.val = j.val; rw [hi.2]; omega

/-- And for the feature array. -/
theorem featBlk_apply (c : Dev nD) (k : Fin 125) (p : Fin 8000) (j : Fin 8) :
    featBlk m c (pt k) (ix2 p j) = featArr m c (ix2 (sampleIdx k p) j) := by
  have hi := (block_index (pt k)).2.2
  unfold featBlk iblk
  rw [View.read_apply]
  show V m c main_arg2 _ = m ((c : Thread nD τ).loc main_arg2) _
  rw [V_main_arg2]
  congr 1
  funext a
  apply Fin.ext
  match a with
  | ⟨0, _⟩ => show win0_2.index (pt k) 0 * 8000 + 1 * p.val = 8000 * k.val + p.val; rw [hi.1]; show k.val * 8000 + 1 * p.val = _; omega
  | ⟨1, _⟩ => show win0_2.index (pt k) 1 * 8 + 1 * j.val = j.val; rw [hi.2]; omega

/-! ## The block totals and the running total -/

/-- Block `k`'s total. -/
def blockSum (c : Dev nD) (k : Fin 125) : EReal :=
  blockTotal (outBlk m c (pt k)) (tgtBlk m c (pt k)) (speedCol (featBlk m c (pt k)))

/-- It is the sum of the contributions of the samples `8000 k, …, 8000 k + 7999`. -/
theorem blockSum_eq (c : Dev nD) (k : Fin 125) :
    blockSum m c k = ∑ p : Fin 8000, sampleOf (outArr m c) (tgtArr m c) (featArr m c) (sampleIdx k p) := by
  unfold blockSum blockTotal sampleOf
  refine Finset.sum_congr rfl fun p _ => ?_
  have e0 : (fun j : Fin 16 => outBlk m c (pt k) (ix2 p j)) = fun j => outArr m c (ix2 (sampleIdx k p) j) :=
    funext fun j => outBlk_apply m c k p j
  have e1 : (fun j : Fin 16 => tgtBlk m c (pt k) (ix2 p j)) = fun j => tgtArr m c (ix2 (sampleIdx k p) j) :=
    funext fun j => tgtBlk_apply m c k p j
  have e2 : speedCol (featBlk m c (pt k)) (ix2 p (0 : Fin 1)) = featArr m c (ix2 (sampleIdx k p) (3 : Fin 8)) :=
    (speedCol_apply (featBlk m c (pt k)) p 0).trans (featBlk_apply m c k p 3)
  rw [e0, e1, e2]

/-- The block totals, indexed by the natural numbers (zero past the grid). -/
def blockSums (c : Dev nD) : ℕ → EReal := fun n => if h : n < 125 then blockSum m c ⟨n, h⟩ else 0

theorem blockSums_eq (c : Dev nD) (n : ℕ) (h : n < cfg0.N) :
    blockSums m c n = blockTotal (outBlk m c ⟨n, h⟩) (tgtBlk m c ⟨n, h⟩) (speedCol (featBlk m c ⟨n, h⟩)) := by
  have h' : n < 125 := lt_of_lt_of_eq h (show cfg0.N = 125 from N_0)
  unfold blockSums
  rw [dif_pos h']
  rfl

/-- After point `n`, before the last, the output block holds the ordered running total of the block totals `0, …, n`:
    by induction on the point. -/
theorem running (c : Dev nD) : ∀ (n : ℕ) (h : n < cfg0.N), n < 124 →
    outsAt0 m c n h = fun _ => runningTotal (blockSums m c) n
  | 0, h, _ => by
    refine ((outsAt0_A m c ⟨0, h⟩ rfl (by dsimp only; omega)).trans
      (out_first (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) _ _
        (outBlk m c ⟨0, h⟩) (tgtBlk m c ⟨0, h⟩) (featBlk m c ⟨0, h⟩))).trans ?_
    funext y
    refine (accumulate_apply _ _ _ _ y).trans ?_
    rw [reset_apply, ← blockSums_eq m c 0 h]
    rfl
  | n + 1, h, h' => by
    have hN : cfg0.N = 125 := N_0
    have h0 : ¬(⟨n + 1, h⟩ : Fin cfg0.N).val % 125 = 0 := by dsimp only; omega
    have h1 : ¬(⟨n + 1, h⟩ : Fin cfg0.N).val % 125 = 124 := by dsimp only; omega
    refine ((outsAt0_B m c ⟨n + 1, h⟩ h0 h1).trans
      (out_mid (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) _ _
        (outBlk m c ⟨n + 1, h⟩) (tgtBlk m c ⟨n + 1, h⟩) (featBlk m c ⟨n + 1, h⟩) (outsAt0 m c n (Nat.lt_of_succ_lt h)))).trans ?_
    funext y
    refine (accumulate_apply _ _ _ _ y).trans ?_
    rw [running c n (Nat.lt_of_succ_lt h) (by omega), ← blockSums_eq m c (n + 1) h]
    rfl

/-- The kernel's number: the running total over all 125 blocks, divided by a million. -/
def total (c : Dev nD) : EReal :=
  Ideal.div (runningTotal (blockSums m c) 124) (Ideal.ofBits .f32 0x49742400#32)

/-- After the last point the output block holds it. -/
theorem last (c : Dev nD) (h : 124 < cfg0.N) : outsAt0 m c 124 h = fun _ => total m c := by
  have h0 : ¬(⟨124, h⟩ : Fin cfg0.N).val % 125 = 0 := by dsimp only; omega
  have h1 : (⟨124, h⟩ : Fin cfg0.N).val % 125 = 124 := rfl
  refine ((outsAt0_C m c ⟨124, h⟩ h0 h1).trans
    (out_last (F := Ideal) c (grid0.coords ⟨124, h⟩) (ms0_0 ⟨124, h⟩) (hs0_0 ⟨124, h⟩) (ms0_1 ⟨124, h⟩) (hs0_1 ⟨124, h⟩) (ms0_2 ⟨124, h⟩) (hs0_2 ⟨124, h⟩) (ms0_3 ⟨124, h⟩) (hs0_3 ⟨124, h⟩) _ _
      (outBlk m c ⟨124, h⟩) (tgtBlk m c ⟨124, h⟩) (featBlk m c ⟨124, h⟩) (outsAt0 m c 123 (Nat.lt_of_succ_lt h)))).trans ?_
  funext y
  refine (finish_apply _ y).trans ?_
  unfold total
  refine congrArg (Ideal.div · (Ideal.ofBits .f32 0x49742400#32)) ?_
  refine (accumulate_apply _ _ _ _ _).trans ?_
  rw [running m c 123 (Nat.lt_of_succ_lt h) (by norm_num), ← blockSums_eq m c 124 h]
  rfl

/-- The kernel's number is the mean of the samples' contributions: the ordered running total over the blocks is the sum
    over the blocks, and the sum over the blocks of the blocks' sums is the sum over all samples. -/
theorem total_eq (c : Dev nD) : total m c = meanOf (sampleOf (outArr m c) (tgtArr m c) (featArr m c)) := by
  unfold total meanOf
  refine congrArg (Ideal.div · (Ideal.ofBits .f32 0x49742400#32)) ?_
  have e : blockSums m c = fun k => if h : k < 125 then blockSum m c ⟨k, h⟩ else 0 := rfl
  rw [e, runningTotal_last, sum_samples]
  exact Finset.sum_congr rfl fun t _ => blockSum_eq m c t

/-! ## The result array and the scalar result -/

/-- The last grid point. -/
abbrev lastPt : Fin cfg0.N := ⟨124, by rw [show cfg0.N = 125 from N_0]; decide⟩

/-- The one-entry result array's contents. -/
abbrev result (c : Dev nD) : Buf (Elt Ideal) ((c : Thread nD τ).loc main_v0) := fun _ => total m c

/-- The one write-back, after the last point, writes it. -/
theorem flushed_eq (c : Dev nD) (t : Fin cfg0.N) (hf : (cfg0.win 3).flush t = true) :
    (dats m 0 c).flushed 3 t = ((cfg0.win 3).blk t).view.read (Elt Ideal) (result m c) := by
  have hN : cfg0.N = 125 := N_0
  have h124 : t.val = 124 := by have := (flush0_3 t).mp hf; have := t.isLt; omega
  obtain rfl : t = lastPt := Fin.ext h124
  show (cfg0.win 3).cut (grid0.coords lastPt) ((dats m 0 c).after 3 lastPt) = _
  rw [after0_3, last]
  rfl

/-- So the result array ends holding it: the last point's block is the whole array. -/
theorem final (c : Dev nD) : (dats m 0 c).arrAt 3 cfg0.N = result m c :=
  (dats m 0 c).arrAt_eq_of_cover 3 (result m c) (flushed_eq m c) fun i =>
    ⟨lastPt, (flush0_3 lastPt).mpr rfl, by
      show i ∈ ((View.whole main_v0).slice (win0_3.rect lastPt)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index lastPt 0 * win0_3.size 0 ≤ (i 0 : Nat) ∧ (i 0 : Nat) < win0_3.index lastPt 0 * win0_3.size 0 + win0_3.xsize (grid0.coords lastPt) 0
        rw [show win0_3.index lastPt 0 * win0_3.size 0 = 0 from by decide +kernel, show win0_3.xsize (grid0.coords lastPt) 0 = 1 from by decide +kernel]; omega
      | ⟨1, _⟩ =>
        show win0_3.index lastPt 1 * win0_3.size 1 ≤ (i 1 : Nat) ∧ (i 1 : Nat) < win0_3.index lastPt 1 * win0_3.size 1 + win0_3.xsize (grid0.coords lastPt) 1
        rw [show win0_3.index lastPt 1 * win0_3.size 1 = 0 from by decide +kernel, show win0_3.xsize (grid0.coords lastPt) 1 = 1 from by decide +kernel]; omega⟩

/-- The host line after the kernel reshapes the one-entry array to a scalar: the same number. -/
theorem scalar_eq (c : Dev nD) :
    Pipeline.afterTail₀ cfgs (dats m) 0 (V0 m) [hostOps1] c main_v1 = fun _ => total m c := by
  unfold Pipeline.afterTail₀
  show StableHlo.after hostOps1 _ (Proc.devRef .tc main_v1) = _
  after_results
  rw [(Pipeline.withArrays_arr spec0 launch0.win.arr_inj c _ _ 3).trans (final m c)]
  rfl

/-- The run, read: the scalar result at the kernel's number, the arguments unchanged. -/
theorem run : θ_run defs (onTc (τ := τ) (main (F := Ideal))) ⟨m, fun _ => 0, ρ⟩ fun r => ∀ c : Dev nD,
      r.2.mem ((c.tc : Thread nD τ).loc main_v1) = (fun _ => total m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).2 main_v1 (by decide)).trans (scalar_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Value

end Cert.KernelIdeal.Accumulate

end
-- ==== Proof.LibVecSum.lean ====
/-
  A sum over the indices of a rank-1 array is the sum over its one coordinate.
-/
import Idealize.ShloMosaic.Lib.ValueIdx
import Mathlib.Algebra.BigOperators.Group.Finset.Basic

open scoped BigOperators

namespace Idealize.ShloMosaic.ValueIdx

open Idealize.ShloMosaic

/-- The indices of an `[n]` array are its coordinates. -/
def idxEquiv1 {n : Nat} : (⟨1, ![n]⟩ : Shape).Idx ≃ Fin n where
  toFun j := j 0
  invFun r := ix1 r
  left_inv j := (eq_ix1 j).symm
  right_inv _ := rfl

/-- A sum over the indices of an `[n]` array, taken over the coordinate. -/
theorem sum_idx1 {M : Type*} [AddCommMonoid M] {n : Nat} (f : (⟨1, ![n]⟩ : Shape).Idx → M) :
    ∑ j, f j = ∑ r : Fin n, f (ix1 r) :=
  (Equiv.sum_comp (idxEquiv1 (n := n)).symm f).symm

end Idealize.ShloMosaic.ValueIdx
-- ==== Proof.RefValue.lean ====
/-
  The reference's result, read sample by sample.

  The reference subtracts, takes absolute values, sums each row and divides by sixteen; multiplies by one plus a tenth of
  column 3 of the features; sums over the samples from zero and divides by a million. Entry `r` of the product is sample
  `r`'s contribution, so the result is the mean of the contributions.
-/
import proofs.«166217_j42545946034230_1_alg».proof.Proof.Gen.ReferenceIdeal.Read
import proofs.«166217_j42545946034230_1_alg».proof.Proof.WeightedL1
import proofs.«166217_j42545946034230_1_alg».proof.Proof.LibVecSum
import Idealize.ShloMosaic.Lib.ValueIdx

noncomputable section

open scoped BigOperators

namespace Cert.ReferenceIdeal.RefValue

open Idealize.ShloMosaic Idealize.ShloMosaic.ValueIdx Cert.ReferenceIdeal Cert.ReferenceIdeal.Read Cert.WeightedL1

/-- Column `k` of row `r`, as the row sum indexes its operand. -/
theorem row_idx (r : Fin 1000000) (k : Fin 16) : idx_main_v2 (ix1 r) k = ix2 r k :=
  funext fun a => Fin.ext (by match a with | ⟨0, _⟩ => rfl | ⟨1, _⟩ => rfl)

/-- Entry `r` of the speed vector is column 3 of row `r` of the features (the slice, then the reshape). -/
theorem speed_idx (r : Fin 1000000) : idx_main_v5 (idx_main_v6 (ix1 r)) = ix2 r (3 : Fin 8) :=
  funext fun a => Fin.ext (by
    match a with
    | ⟨0, _⟩ => show r.val / 1 = r.val; omega
    | ⟨1, _⟩ => rfl)

/-- Entry `r` of the weighted per-sample errors is sample `r`'s contribution. -/
theorem weighted_apply (a b : (⟨S1000000x16, .f32⟩ : BufTy).Contents (Elt Ideal)) (x : (⟨S1000000x8, .f32⟩ : BufTy).Contents (Elt Ideal))
    (r : Fin 1000000) : val_main_v11 (F := Ideal) a b x (ix1 r) = sampleOf a b x r := by
  rw [val_main_v11_apply, val_main_v4_apply, val_main_v2_apply, val_main_v3_apply, val_main_v10_apply, val_main_v9_apply,
    val_main_v8_apply, val_main_v6_apply, val_main_v5_apply, val_main_v7_apply]
  simp only [val_main_v1_apply, val_main_v0_apply, val_main_cst_apply, val_main_cst_0_apply, val_main_cst_1_apply,
    val_main_cst_2_apply, Ideal.hostAbsf_def, Ideal.hostDivf_def, Ideal.mulf_def, Ideal.addf_def, Ideal.subf_def,
    Ideal.ofBits_def, Ideal.ofBits_zero_f32, zero_add, row_idx, speed_idx]
  rfl

/-- The reference's result is the mean of the samples' contributions. -/
theorem result_eq (a b : (⟨S1000000x16, .f32⟩ : BufTy).Contents (Elt Ideal)) (x : (⟨S1000000x8, .f32⟩ : BufTy).Contents (Elt Ideal)) :
    val_main_v13 (F := Ideal) a b x = fun _ => meanOf (sampleOf a b x) := by
  funext i
  rw [val_main_v13_apply, val_main_v12_apply, sum_idx1]
  simp only [weighted_apply, val_main_cst_3_apply, val_main_cst_4_apply, Ideal.hostDivf_def, Ideal.ofBits_def,
    Ideal.ofBits_zero_f32, zero_add]
  rfl

end Cert.ReferenceIdeal.RefValue

end
-- ==== Proof.lean ====
/-
  The weighted mean absolute error kernel against its reference, over the extended reals.

  Both programs compute, for each of a million samples, the mean of sixteen absolute differences times one plus a tenth
  of the sample's speed, and divide the sum of these by a million. The reference sums over all samples at once; the kernel
  sums 8000 samples at each of 125 grid points into a one-entry block that it zeroes at the first point, carries from
  point to point, and divides at the last. The two sums are one sum taken in two groupings, equal because addition of
  extended reals is commutative and associative; the literals (16, the single-precision tenth, 1, a million) are the same
  words on both sides, and the finiteness of the inputs is not used. The ideal pass rewrote nothing, so the kernel's
  idealization is its own text.
-/
import proofs.«166217_j42545946034230_1_alg».proof.Defs
import proofs.«166217_j42545946034230_1_alg».proof.Proof.Gen.Kernel
import proofs.«166217_j42545946034230_1_alg».proof.Proof.Gen.Kernel.Skeleton
import proofs.«166217_j42545946034230_1_alg».proof.Proof.Gen.Kernel.Launch
import proofs.«166217_j42545946034230_1_alg».proof.Proof.Gen.Kernel.Points
import proofs.«166217_j42545946034230_1_alg».proof.Proof.Gen.Kernel.Frame
import proofs.«166217_j42545946034230_1_alg».proof.Proof.Gen.KernelIdeal
import proofs.«166217_j42545946034230_1_alg».proof.Proof.Gen.KernelIdeal.Skeleton
import proofs.«166217_j42545946034230_1_alg».proof.Proof.Gen.KernelIdeal.Launch
import proofs.«166217_j42545946034230_1_alg».proof.Proof.Gen.KernelIdeal.Points
import proofs.«166217_j42545946034230_1_alg».proof.Proof.Gen.KernelIdeal.Frame
import proofs.«166217_j42545946034230_1_alg».proof.Proof.Gen.ReferenceIdeal
import proofs.«166217_j42545946034230_1_alg».proof.Proof.Gen.ReferenceIdeal.Run
import proofs.«166217_j42545946034230_1_alg».proof.Proof.Gen.ReferenceIdeal.Read
import proofs.«166217_j42545946034230_1_alg».proof.Proof.Gen.Pre_finite_inputs
import proofs.«166217_j42545946034230_1_alg».proof.Proof.Accumulate
import proofs.«166217_j42545946034230_1_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_kernel : @Cert.frame_Kernel Cert.Kernel.Gen.facts Cert.Pre_finite_inputs.Gen.facts :=
  fun m ρ _ => Cert.Kernel.Gen.frame m ρ

/-- So does its idealization. -/
theorem frame_kernelIdeal : @Cert.frame_KernelIdeal Cert.KernelIdeal.Gen.facts Cert.Pre_finite_inputs.Gen.facts :=
  fun m ρ _ => Cert.KernelIdeal.Gen.frame m ρ

/-- The reference runs and keeps its arguments: its run, the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- From arguments that agree, the kernel's scalar is the mean of the samples' contributions (the running total over the
    blocks is the sum over all samples), and so is the reference's. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => fun _ => Cert.KernelIdeal.Accumulate.total m c, Cert.KernelIdeal.Accumulate.run m ρ, ?_⟩
  refine (θ_run Cert.ReferenceIdeal.defs _ _).mono (fun _ h c => ⟨(h c).1.trans ?_, (h c).2⟩)
    (Cert.ReferenceIdeal.Value.run (F := Ideal) m' ρ')
  show _ = fun _ => Cert.KernelIdeal.Accumulate.total m c
  rw [Cert.ReferenceIdeal.Read.val_main_v13_eq, Cert.ReferenceIdeal.RefValue.result_eq, (hagree c).1, (hagree c).2.1,
    (hagree c).2.2, Cert.KernelIdeal.Accumulate.total_eq]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
